-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x200x640 : S_.BroadcastsInDim S4x200x640 (![] : Fin 0 → Fin S4x200x640.rank)
  reducesTo_S4x200x640_S_d0_1_2 : S4x200x640.ReducesTo [0, 1, 2] S_
  h_S_ : 0 < S_.numel
  bcast_S_S4x100x640 : S_.BroadcastsInDim S4x100x640 (![] : Fin 0 → Fin S4x100x640.rank)
  reducesTo_S4x100x640_S_d0_1_2 : S4x100x640.ReducesTo [0, 1, 2] S_
  bcast_S_S1280x640 : S_.BroadcastsInDim S1280x640 (![] : Fin 0 → Fin S1280x640.rank)
  reducesTo_S1280x640_S_d0_1 : S1280x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x200x640 .f32) (main_arg1 : FVec F S4x100x640 .f32) (main_arg2 : FVec F S1280x640 .f32) (main_arg3 : FVec F S640 .f32) (main_arg4 : FVec F S640x1024 .f32) (main_arg5 : FVec F S1024 .f32) : IVec S_ 1 :=
  let main_v0 : FVec F S4x200x640 .f32 := Host.absf main_arg0
  let main_cst : FVec F S_ .f32 := constant S_ .f32 0x7F800000#32
  let main_v1 : FVec F S4x200x640 .f32 := broadcastInDim S4x200x640 ![] bcast_S_S4x200x640 main_cst
  let main_v2 : IVec S4x200x640 1 := cmpf .olt main_v0 main_v1
  let main_c : IVec S_ 1 := constantI S_ 1 1#1
  let main_v3 : IVec S_ 1 := (fun x v => Host.reduce IntOp.andi x v reducesTo_S4x200x640_S_d0_1_2 h_S_) main_v2 main_c
  let main_v4 : FVec F S4x100x640 .f32 := Host.absf main_arg1
  let main_cst_0 : FVec F S_ .f32 := constant S_ .f32 0x7F800000#32
  let main_v5 : FVec F S4x100x640 .f32 := broadcastInDim S4x100x640 ![] bcast_S_S4x100x640 main_cst_0
  let main_v6 : IVec S4x100x640 1 := cmpf .olt main_v4 main_v5
  let main_c_1 : IVec S_ 1 := constantI S_ 1 1#1
  let main_v7 : IVec S_ 1 := (fun x v => Host.reduce IntOp.andi x v reducesTo_S4x100x640_S_d0_1_2 h_S_) main_v6 main_c_1
  let main_v8 : IVec S_ 1 := andi main_v3 main_v7
  let main_v9 : FVec F S1280x640 .f32 := Host.absf main_arg2
  let main_cst_2 : FVec F S_ .f32 := constant S_ .f32 0x7F800000#32
  let main_v10 : FVec F S1280x640 .f32 := broadcastInDim S1280x640 ![] bcast_S_S1280x640 main_cst_2
  let main_v11 : IVec S1280x640 1 := cmpf .olt main_v9 main_v10
  let main_c_3 : IVec S_ 1 := constantI S_ 1 1#1
  let main_v12 : IVec S_ 1 := (fun x v => Host.reduce IntOp.andi x v reducesTo_S1280x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S800x640 : Shape := ⟨2, ![800, 640]⟩
abbrev S400x640 : Shape := ⟨2, ![400, 640]⟩
abbrev S200x640 : Shape := ⟨2, ![200, 640]⟩
abbrev S1x640 : Shape := ⟨2, ![1, 640]⟩
abbrev S1x1024 : Shape := ⟨2, ![1, 1024]⟩
abbrev S4x200x100x1024 : Shape := ⟨4, ![4, 200, 100, 1024]⟩
abbrev S1x8x640 : Shape := ⟨3, ![1, 8, 640]⟩
abbrev S1x100x640 : Shape := ⟨3, ![1, 100, 640]⟩
abbrev S640x512 : Shape := ⟨2, ![640, 512]⟩
abbrev S1x512 : Shape := ⟨2, ![1, 512]⟩
abbrev S1x8x100x512 : Shape := ⟨4, ![1, 8, 100, 512]⟩
abbrev S8x640 : Shape := ⟨2, ![8, 640]⟩
abbrev S100x640 : Shape := ⟨2, ![100, 640]⟩
abbrev S8x1x640 : Shape := ⟨3, ![8, 1, 640]⟩
abbrev S8x100x640 : Shape := ⟨3, ![8, 100, 640]⟩
abbrev S1x1x640 : Shape := ⟨3, ![1, 1, 640]⟩
abbrev S800x512 : Shape := ⟨2, ![800, 512]⟩
abbrev S8x100x512 : Shape := ⟨3, ![8, 100, 512]⟩

abbrev nBuf : Space → Nat
  | .hbm => 17
  | .vmem => 21
  | .smem => 0
  | _ => 0

abbrev bufTy : (tb : Table) → Fin (tcTables nBuf tb) → BufTy
  | .hbm, ⟨0, _⟩ => ⟨S4x200x640, .f32⟩
  | .hbm, ⟨1, _⟩ => ⟨S4x100x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S640x640, .f32⟩
  | .hbm, ⟨7, _⟩ => ⟨S640x640, .f32⟩
  | .hbm, ⟨8, _⟩ => ⟨S800x640, .f32⟩
  | .hbm, ⟨9, _⟩ => ⟨S400x640, .f32⟩
  | .hbm, ⟨10, _⟩ => ⟨S800x640, .f32⟩
  | .hbm, ⟨11, _⟩ => ⟨S400x640, .f32⟩
  | .hbm, ⟨12, _⟩ => ⟨S4x200x640, .f32⟩
  | .hbm, ⟨13, _⟩ => ⟨S4x100x640, .f32⟩
  | .hbm, ⟨14, _⟩ => ⟨S1x640, .f32⟩
  | .hbm, ⟨15, _⟩ => ⟨S1x1024, .f32⟩
  | .hbm, ⟨16, _⟩ => ⟨S4x200x100x1024, .f32⟩
  | .local _ .vmem, ⟨0, _⟩ => ⟨S200x640, .f32⟩
  | .local _ .vmem, ⟨1, _⟩ => ⟨S200x640, .f32⟩
  | .local _ .vmem, ⟨2, _⟩ => ⟨S640x640, .f32⟩
  | .local _ .vmem, ⟨3, _⟩ => ⟨S200x640, .f32⟩
  | .local _ .vmem, ⟨4, _⟩ => ⟨S200x640, .f32⟩
  | .local _ .vmem, ⟨5, _⟩ => ⟨S200x640, .f32⟩
  | .local _ .vmem, ⟨6, _⟩ => ⟨S200x640, .f32⟩
  | .local _ .vmem, ⟨7, _⟩ => ⟨S640x640, .f32⟩
  | .local _ .vmem, ⟨8, _⟩ => ⟨S200x640, .f32⟩
  | .local _ .vmem, ⟨9, _⟩ => ⟨S200x640, .f32⟩
  | .local _ .vmem, ⟨10, _⟩ => ⟨S1x8x640, .f32⟩
  | .local _ .vmem, ⟨11, _⟩ => ⟨S1x8x640, .f32⟩
  | .local _ .vmem, ⟨12, _⟩ => ⟨S1x100x640, .f32⟩
  | .local _ .vmem, ⟨13, _⟩ => ⟨S1x100x640, .f32⟩
  | .local _ .vmem, ⟨14, _⟩ => ⟨S1x640, .f32⟩
  | .local _ .vmem, ⟨15, _⟩ => ⟨S640x512, .f32⟩
  | .local _ .vmem, ⟨16, _⟩ => ⟨S640x512, .f32⟩
  | .local _ .vmem, ⟨17, _⟩ => ⟨S1x512, .f32⟩
  | .local _ .vmem, ⟨18, _⟩ => ⟨S1x512, .f32⟩
  | .local _ .vmem, ⟨19, _⟩ => ⟨S1x8x100x512, .f32⟩
  | .local _ .vmem, ⟨20, _⟩ => ⟨S1x8x100x512, .f32⟩
  | _, _ => ⟨S4x200x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 25, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_5 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage2_0 : Fin 2 → Memref sig .tc .vmem S1x8x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x100x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 1 → Memref sig .tc .vmem S1x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S640x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, false, true]

abbrev stage2_5 : Fin 2 → Memref sig .tc .vmem S1x8x100x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

class Facts₀ : Prop where
  slices_S1280x640_S640x640_0_0 : S1280x640.Slices ![0, 0] S640x640
  slices_S1280x640_S640x640_640_0 : S1280x640.Slices ![640, 0] S640x640
  shapeCasts_S4x200x640_S800x640 : S4x200x640.ShapeCasts S800x640
  shapeCasts_S4x100x640_S400x640 : S4x100x640.ShapeCasts S400x640
  inb_S200x640_S200x640_0_0 : ∀ a, (![0, 0] : Fin 2 → Nat) a + S200x640.size a ≤ S200x640.size a
  h_S200x640 : 0 < S200x640.numel
  shapeCasts_S200x640_S200x640 : S200x640.ShapeCasts S200x640
  bitsLt_bf16_f32 : FTy.bits .bf16 < FTy.bits .f32
  inb_S640x640_S640x640_0_0 : ∀ a, (![0, 0] : Fin 2 → Nat) a + S640x640.size a ≤ S640x640.size a
  h_S640x640 : 0 < S640x640.numel
  shapeCasts_S640x640_S640x640 : S640x640.ShapeCasts S640x640
  shapeCasts_S800x640_S4x200x640 : S800x640.ShapeCasts S4x200x640
  shapeCasts_S400x640_S4x100x640 : S400x640.ShapeCasts S4x100x640
  shapeCasts_S640_S1x640 : S640.ShapeCasts S1x640
  shapeCasts_S1024_S1x1024 : S1024.ShapeCasts S1x1024
  inb_S1x8x640_S1x8x640_0_0_0 : ∀ a, (![0, 0, 0] : Fin 3 → Nat) a + S1x8x640.size a ≤ S1x8x640.size a
  h_S1x8x640 : 0 < S1x8x640.numel
  shapeCasts_S1x8x640_S8x640 : S1x8x640.ShapeCasts S8x640
  inb_S1x100x640_S1x100x640_0_0_0 : ∀ a, (![0, 0, 0] : Fin 3 → Nat) a + S1x100x640.size a ≤ S1x100x640.size a
  h_S1x100x640 : 0 < S1x100x640.numel
  shapeCasts_S1x100x640_S100x640 : S1x100x640.ShapeCasts S100x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  shapeCasts_S8x640_S8x1x640 : S8x640.ShapeCasts S8x1x640
  shapeCasts_S100x640_S1x100x640 : S100x640.ShapeCasts S1x100x640
  broadcasts_S8x1x640_S8x100x640 : S8x1x640.Broadcasts S8x100x640
  broadcasts_S1x100x640_S8x100x640 : S1x100x640.Broadcasts S8x100x640
  shapeCasts_S1x640_S1x1x640 : S1x640.ShapeCasts S1x1x640
  broadcasts_S1x1x640_S8x100x640 : S1x1x640.Broadcasts S8x100x640
  shapeCasts_S8x100x640_S800x640 : S8x100x640.ShapeCasts S800x640
  inb_S640x512_S640x512_0_0 : ∀ a, (![0, 0] : Fin 2 → Nat) a + S640x512.size a ≤ S640x512.size a
  h_S640x512 : 0 < S640x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  shapeCasts_S800x512_S8x100x512 : S800x512.ShapeCasts S8x100x512
  inb_S1x8x100x512_S1x8x100x512_0_0_0_0 : ∀ a, (![0, 0, 0, 0] : Fin 4 → Nat) a + S1x8x100x512.size a ≤ S1x8x100x512.size a
  h_S1x8x100x512 : 0 < S1x8x100x512.numel
  shapeCasts_S1x8x100x512_S8x100x512 : S1x8x100x512.ShapeCasts S8x100x512
  shapeCasts_S8x100x512_S1x8x100x512 : S8x100x512.ShapeCasts S1x8x100x512
  dot_S200x640_S640x640_S200x640_1_0_0_1_n_n_wf : DotDims.WF S200x640 S640x640 S200x640 [1] [0] [0] [1] [] []
  dot_S800x640_S640x512_S800x512_1_0_0_1_n_n_wf : DotDims.WF S800x640 S640x512 S800x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x640.size a ≤ S800x640.size a
  hwx0_0 : ∀ i : grid0.Coords, EltTy.bits .f32 = 32 ∨ (Rect.block (s := S800x640) S200x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .f32 = 32 ∨ (Rect.block (s := S640x640) S640x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x640.size a ≤ S800x640.size a
  hwx0_2 : ∀ i : grid0.Coords, EltTy.bits .f32 = 32 ∨ (Rect.block (s := S800x640) S200x640.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x640.size a ≤ S400x640.size a
  hwx1_0 : ∀ i : grid1.Coords, EltTy.bits .f32 = 32 ∨ (Rect.block (s := S400x640) S200x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x640.size a ≤ S640x640.size a
  hwx1_1 : ∀ i : grid1.Coords, EltTy.bits .f32 = 32 ∨ (Rect.block (s := S640x640) S640x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x640.size a ≤ S400x640.size a
  hwx1_2 : ∀ i : grid1.Coords, EltTy.bits .f32 = 32 ∨ (Rect.block (s := S400x640) S200x640.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x640.size a ≤ S4x200x640.size a
  hwx2_0 : ∀ i : grid2.Coords, EltTy.bits .f32 = 32 ∨ (Rect.block (s := S4x200x640) S1x8x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x640.size a ≤ S4x100x640.size a
  hwx2_1 : ∀ i : grid2.Coords, EltTy.bits .f32 = 32 ∨ (Rect.block (s := S4x100x640) S1x100x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x640.size a
  hwx2_2 : ∀ i : grid2.Coords, EltTy.bits .f32 = 32 ∨ (Rect.block (s := S1x640) S1x640.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S640x512.size a ≤ S640x1024.size a
  hwx2_3 : ∀ i : grid2.Coords, EltTy.bits .f32 = 32 ∨ (Rect.block (s := S640x1024) S640x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x1024.size a
  hwx2_4 : ∀ i : grid2.Coords, EltTy.bits .f32 = 32 ∨ (Rect.block (s := S1x1024) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8x100x512.size a ≤ S4x200x100x1024.size a
  hwx2_5 : ∀ i : grid2.Coords, EltTy.bits .f32 = 32 ∨ (Rect.block (s := S4x200x100x1024) S1x8x100x512.size (cc2_transform_5 i) (hinb2_5 i)).WholeWords (EltTy.packing .f32)

variable [Facts₀]

def dot_S200x640_S640x640_S200x640_1_0_0_1_n_n : DotDims S200x640 S640x640 S200x640 where
  lhsContracting := [1]
  rhsContracting := [0]
  lhsNonContracting := [0]
  rhsNonContracting := [1]
  lhsBatch := []
  rhsBatch := []
  wf := dot_S200x640_S640x640_S200x640_1_0_0_1_n_n_wf
def dot_S800x640_S640x512_S800x512_1_0_0_1_n_n : DotDims S800x640 S640x512 S800x512 where
  lhsContracting := [1]
  rhsContracting := [0]
  lhsNonContracting := [0]
  rhsNonContracting := [1]
  lhsBatch := []
  rhsBatch := []
  wf := dot_S800x640_S640x512_S800x512_1_0_0_1_n_n_wf

abbrev win0_0 : Pipeline.Window sig grid0 :=
  Pipeline.Window.ofSpec (Memref.whole main_v2) S200x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S200x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S200x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S640x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S200x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x8x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x100x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S640x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x8x100x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S4x200x1x640 : Shape := ⟨4, ![4, 200, 1, 640]⟩
abbrev S4x1x100x640 : Shape := ⟨4, ![4, 1, 100, 640]⟩
abbrev S4x200x100x640 : Shape := ⟨4, ![4, 200, 100, 640]⟩
abbrev S1x1x1x640 : Shape := ⟨4, ![1, 1, 1, 640]⟩
abbrev S_ : Shape := ⟨0, ![]⟩
abbrev S4x200x100x1024 : Shape := ⟨4, ![4, 200, 100, 1024]⟩
abbrev S1x1x1x1024 : Shape := ⟨4, ![1, 1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x200x640, .f32⟩
  | .hbm, ⟨1, _⟩ => ⟨S4x100x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S640x640, .f32⟩
  | .hbm, ⟨7, _⟩ => ⟨S640x640, .f32⟩
  | .hbm, ⟨8, _⟩ => ⟨S4x200x640, .f32⟩
  | .hbm, ⟨9, _⟩ => ⟨S4x100x640, .f32⟩
  | .hbm, ⟨10, _⟩ => ⟨S4x200x1x640, .f32⟩
  | .hbm, ⟨11, _⟩ => ⟨S4x1x100x640, .f32⟩
  | .hbm, ⟨12, _⟩ => ⟨S4x200x100x640, .f32⟩
  | .hbm, ⟨13, _⟩ => ⟨S4x200x100x640, .f32⟩
  | .hbm, ⟨14, _⟩ => ⟨S4x200x100x640, .f32⟩
  | .hbm, ⟨15, _⟩ => ⟨S1x1x1x640, .f32⟩
  | .hbm, ⟨16, _⟩ => ⟨S4x200x100x640, .f32⟩
  | .hbm, ⟨17, _⟩ => ⟨S4x200x100x640, .f32⟩
  | .hbm, ⟨18, _⟩ => ⟨S4x200x100x640, .f32⟩
  | .hbm, ⟨19, _⟩ => ⟨S4x200x100x640, .f32⟩
  | .hbm, ⟨20, _⟩ => ⟨S_, .f32⟩
  | .hbm, ⟨21, _⟩ => ⟨S4x200x100x640, .f32⟩
  | .hbm, ⟨22, _⟩ => ⟨S4x200x100x640, .f32⟩
  | .hbm, ⟨23, _⟩ => ⟨S_, .f32⟩
  | .hbm, ⟨24, _⟩ => ⟨S4x200x100x640, .f32⟩
  | .hbm, ⟨25, _⟩ => ⟨S4x200x100x640, .f32⟩
  | .hbm, ⟨26, _⟩ => ⟨S4x200x100x640, .f32⟩
  | .hbm, ⟨27, _⟩ => ⟨S4x200x100x1024, .f32⟩
  | .hbm, ⟨28, _⟩ => ⟨S1x1x1x1024, .f32⟩
  | .hbm, ⟨29, _⟩ => ⟨S4x200x100x1024, .f32⟩
  | .hbm, ⟨30, _⟩ => ⟨S4x200x100x1024, .f32⟩
  | _, _ => ⟨S4x200x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  slices_S1280x640_S640x640_0_0 : S1280x640.Slices ![0, 0] S640x640
  slices_S1280x640_S640x640_640_0 : S1280x640.Slices ![640, 0] S640x640
  bcast_S4x200x640_S4x200x1x640_0_1_3 : S4x200x640.BroadcastsInDim S4x200x1x640 (![0, 1, 3] : Fin 3 → Fin S4x200x1x640.rank)
  bcast_S4x100x640_S4x1x100x640_0_2_3 : S4x100x640.BroadcastsInDim S4x1x100x640 (![0, 2, 3] : Fin 3 → Fin S4x1x100x640.rank)
  bcast_S4x200x1x640_S4x200x100x640_0_1_2_3 : S4x200x1x640.BroadcastsInDim S4x200x100x640 (![0, 1, 2, 3] : Fin 4 → Fin S4x200x100x640.rank)
  bcast_S4x1x100x640_S4x200x100x640_0_1_2_3 : S4x1x100x640.BroadcastsInDim S4x200x100x640 (![0, 1, 2, 3] : Fin 4 → Fin S4x200x100x640.rank)
  bcast_S640_S1x1x1x640_3 : S640.BroadcastsInDim S1x1x1x640 (![3] : Fin 1 → Fin S1x1x1x640.rank)
  bcast_S1x1x1x640_S4x200x100x640_0_1_2_3 : S1x1x1x640.BroadcastsInDim S4x200x100x640 (![0, 1, 2, 3] : Fin 4 → Fin S4x200x100x640.rank)
  bcast_S_S4x200x100x640 : S_.BroadcastsInDim S4x200x100x640 (![] : Fin 0 → Fin S4x200x100x640.rank)
  bcast_S1024_S1x1x1x1024_3 : S1024.BroadcastsInDim S1x1x1x1024 (![3] : Fin 1 → Fin S1x1x1x1024.rank)
  bcast_S1x1x1x1024_S4x200x100x1024_0_1_2_3 : S1x1x1x1024.BroadcastsInDim S4x200x100x1024 (![0, 1, 2, 3] : Fin 4 → Fin S4x200x100x1024.rank)
  dot_S4x200x640_S640x640_S4x200x640_2_0_01_1_n_n_wf : DotDims.WF S4x200x640 S640x640 S4x200x640 [2] [0] [0, 1] [1] [] []
  dot_S4x100x640_S640x640_S4x100x640_2_0_01_1_n_n_wf : DotDims.WF S4x100x640 S640x640 S4x100x640 [2] [0] [0, 1] [1] [] []
  dot_S4x200x100x640_S640x1024_S4x200x100x1024_3_0_012_1_n_n_wf : DotDims.WF S4x200x100x640 S640x1024 S4x200x100x1024 [3] [0] [0, 1, 2] [1] [] []

variable [Facts₀]

def dot_S4x200x640_S640x640_S4x200x640_2_0_01_1_n_n : DotDims S4x200x640 S640x640 S4x200x640 where
  lhsContracting := [2]
  rhsContracting := [0]
  lhsNonContracting := [0, 1]
  rhsNonContracting := [1]
  lhsBatch := []
  rhsBatch := []
  wf := dot_S4x200x640_S640x640_S4x200x640_2_0_01_1_n_n_wf
def dot_S4x100x640_S640x640_S4x100x640_2_0_01_1_n_n : DotDims S4x100x640 S640x640 S4x100x640 where
  lhsContracting := [2]
  rhsContracting := [0]
  lhsNonContracting := [0, 1]
  rhsNonContracting := [1]
  lhsBatch := []
  rhsBatch := []
  wf := dot_S4x100x640_S640x640_S4x100x640_2_0_01_1_n_n_wf
def dot_S4x200x100x640_S640x1024_S4x200x100x1024_3_0_012_1_n_n : DotDims S4x200x100x640 S640x1024 S4x200x100x1024 where
  lhsContracting := [3]
  rhsContracting := [0]
  lhsNonContracting := [0, 1, 2]
  rhsNonContracting := [1]
  lhsBatch := []
  rhsBatch := []
  wf := dot_S4x200x100x640_S640x1024_S4x200x100x1024_3_0_012_1_n_n_wf

class Facts : Prop extends Facts₀ where

variable [Facts]
-- ==== Proof.Spec.lean ====
/-
  The function both programs compute, on the extended reals, written once over the argument arrays.

  With enc : [4, 200, 640], pred : [4, 100, 640], W1 : [1280, 640], b1 : [640], W2 : [640, 1024], b2 : [1024]:

    he(b, t, j) = sum over d < 640 of enc(b, t, d) * W1(d, j)              (the upper half of W1's rows)
    hp(b, u, j) = sum over d < 640 of pred(b, u, d) * W1(640 + d, j)       (the lower half of W1's rows)
    out(b, t, u, v) = (sum over j < 640 of silu((he(b, t, j) + hp(b, u, j)) + b1(j)) * W2(j, v)) + b2(v)

  where silu(x) = x * logistic(x) and logistic(x) = 1 / (1 + e^(-x)) with the extended reals' conventions at the
  infinities. The additions are grouped as written: addition of extended reals is commutative and associative, but the
  grouping is kept so that both programs' terms are this one term and no law of arithmetic is needed at all.

  Two stages are named on their own, over any contents, because each is what one kernel region computes from the arrays
  it finds: a plain matrix product `mm`, and the joint stage `joint` from the two projections, the two biases as
  one-row matrices and W2.
-/
import Idealize.ShloMosaic.PureOps.Ideal
import Idealize.ShloMosaic.Lib.ValueIdx

noncomputable section

namespace Cert.Spec

open Idealize.ShloMosaic Idealize.ShloMosaic.ValueIdx

/-- Arrays of extended reals of one to four axes. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal
abbrev A4 (a b c d : ℕ) : Type := (⟨4, ![a, b, c, d]⟩ : Shape).Idx → EReal

/-- silu(x) = x * logistic(x). -/
def silu (x : EReal) : EReal := x * Ideal.logistic x

/-- The plain product of an [R, K] matrix by a [K, C] matrix: entry (p, q) is the sum over k of l(p, k) * r(k, q). -/
def mm {R K C : ℕ} (l : A2 R K) (r : A2 K C) : A2 R C :=
  fun j => ∑ k : Fin K, l (ix2 (j 0) k) * r (ix2 k (j 1))

theorem mm_apply {R K C : ℕ} (l : A2 R K) (r : A2 K C) (p : Fin R) (q : Fin C) :
    mm l r (ix2 p q) = ∑ k : Fin K, l (ix2 p k) * r (ix2 k q) := rfl

/-- The joint stage at (b, t, u, v), from a projection he : [4, 200, 640], a projection hp : [4, 100, 640], the first
    bias as a one-row matrix, W2 and the second bias as a one-row matrix. -/
def jointAt (he : A3 4 200 640) (hp : A3 4 100 640) (b1 : A2 1 640) (w2 : A2 640 1024) (b2 : A2 1 1024)
    (b : Fin 4) (t : Fin 200) (u : Fin 100) (v : Fin 1024) : EReal :=
  (∑ j : Fin 640, silu ((he (ix3 b t j) + hp (ix3 b u j)) + b1 (ix2 0 j)) * w2 (ix2 j v)) + b2 (ix2 0 v)

/-- The joint stage as an array. -/
def joint (he : A3 4 200 640) (hp : A3 4 100 640) (b1 : A2 1 640) (w2 : A2 640 1024) (b2 : A2 1 1024) :
    A4 4 200 100 1024 :=
  fun i => jointAt he hp b1 w2 b2 (i 0) (i 1) (i 2) (i 3)

theorem joint_apply (he : A3 4 200 640) (hp : A3 4 100 640) (b1 : A2 1 640) (w2 : A2 640 1024) (b2 : A2 1 1024)
    (b : Fin 4) (t : Fin 200) (u : Fin 100) (v : Fin 1024) :
    joint he hp b1 w2 b2 (ix4 b t u v) = jointAt he hp b1 w2 b2 b t u v := rfl

/-- Row d of the upper half of a [1280, 640] matrix, and row d of its lower half. -/
def upper (d : Fin 640) : Fin 1280 := ⟨d.val, by have := d.isLt; omega⟩
def lower (d : Fin 640) : Fin 1280 := ⟨640 + d.val, by have := d.isLt; omega⟩

/-- The encoder projection: he(b, t, j) = sum over d of enc(b, t, d) * W1(d, j). -/
def encProj (enc : A3 4 200 640) (W1 : A2 1280 640) : A3 4 200 640 :=
  fun i => ∑ d : Fin 640, enc (ix3 (i 0) (i 1) d) * W1 (ix2 (upper d) (i 2))

/-- The predictor projection: hp(b, u, j) = sum over d of pred(b, u, d) * W1(640 + d, j). -/
def predProj (pred : A3 4 100 640) (W1 : A2 1280 640) : A3 4 100 640 :=
  fun i => ∑ d : Fin 640, pred (ix3 (i 0) (i 1) d) * W1 (ix2 (lower d) (i 2))

theorem encProj_apply (enc : A3 4 200 640) (W1 : A2 1280 640) (b : Fin 4) (t : Fin 200) (j : Fin 640) :
    encProj enc W1 (ix3 b t j) = ∑ d : Fin 640, enc (ix3 b t d) * W1 (ix2 (upper d) j) := rfl

theorem predProj_apply (pred : A3 4 100 640) (W1 : A2 1280 640) (b : Fin 4) (u : Fin 100) (j : Fin 640) :
    predProj pred W1 (ix3 b u j) = ∑ d : Fin 640, pred (ix3 b u d) * W1 (ix2 (lower d) j) := rfl

/-- A vector as a one-row matrix. -/
def row {n : ℕ} (x : A1 n) : A2 1 n := fun i => x (ix1 (i 1))

theorem row_apply {n : ℕ} (x : A1 n) (j : Fin n) : row x (ix2 0 j) = x (ix1 j) := rfl

/-- The whole function: the joint stage of the two projections. -/
def G (enc : A3 4 200 640) (pred : A3 4 100 640) (W1 : A2 1280 640) (b1 : A1 640) (W2 : A2 640 1024) (b2 : A1 1024) :
    A4 4 200 100 1024 :=
  joint (encProj enc W1) (predProj pred W1) (row b1) W2 (row b2)

end Cert.Spec

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Region0.lean ====
/-
  The first projection region, as a value: whatever the region finds in its two input arrays, a [800, 640] matrix x
  and a [640, 640] matrix w, it leaves the plain product x * w in its output array.

  The grid has 4 points; point t takes rows 200 t .. 200 t + 199 of x, all of w, and writes rows 200 t .. 200 t + 199
  of the output. Inside a point the body's one store is the matrix product of the two loaded blocks into zeros, the
  changes of float format being the identity on the extended reals: entry (p, q) of the block is the sum over k of
  x(200 t + p, k) * w(k, q). So each written block is the same rows of the one whole-array product, and the four
  blocks cover all 800 rows.
-/
import proofs.«179707_j46170898432387_1_alg».proof.Proof.Gen.KernelIdeal.Frame
import proofs.«179707_j46170898432387_1_alg».proof.Proof.LibPlainDot
import proofs.«179707_j46170898432387_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The record of the body's product is the plain row-by-column form. -/
theorem plain : PlainDot.IsPlain dot_S200x640_S640x640_S200x640_1_0_0_1_n_n := ⟨rfl, rfl, rfl, rfl, rfl, rfl⟩

/-- The body's stored value at (p, q): the sum over k of the first block's (p, k) times the second block's (k, q). -/
theorem pay_apply (x0 : Vec Ideal S200x640 .f32) (x1 : Vec Ideal S640x640 .f32) (p : Fin 200) (q : Fin 640) :
    k0_pay1 (F := Ideal) x0 x1 (ix2 p q) = ∑ k : Fin 640, x0 (ix2 p k) * x1 (ix2 k q) := by
  unfold k0_pay1
  refine (PlainDot.matmul_zero_apply plain none _ _ p q).trans ?_
  refine Finset.sum_congr rfl fun k _ => ?_
  rw [shapeCast_self, shapeCast_self]
  rfl

/-- The index maps over the grid: the first input's and the output's row block is the point's number, every column
    block is the only one, the second input is fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 200 t + p of the array. -/
def rowOf (t : Fin cfg0.N) (p : Fin 200) : Fin 800 :=
  ⟨200 * t.val + p.val, by have ht : t.val < 4 := lt_of_lt_of_eq t.isLt N_0; have := p.isLt; omega⟩

/-- WHAT POINT t WRITES BACK is its block of the whole-array product of the two arrays the region finds. -/
theorem flushed_eq (c : Dev nD) (t : Fin cfg0.N) :
    (dat0 V c).flushed 2 t = ((cfg0.win 2).blk t).view.read (Elt Ideal) (mm (V c main_v2) (V c main_v0)) := by
  show (cfg0.win 2).cut (grid0.coords t) ((dat0 V c).after 2 t) = _
  rw [after0_2]
  unfold out0_2
  rw [View.canon_unit_zero origin2]
  simp only [View.ld_unit_zero (S := S200x640) origin2, View.ld_unit_zero (S := S640x640) origin2]
  obtain ⟨e0, e1, e2, e3, e4, e5⟩ := idx_facts t
  funext j
  obtain ⟨p, q, rfl⟩ : ∃ (p : Fin 200) (q : Fin 640), j = ix2 p q := ⟨j 0, j 1, eq_ix2 j⟩
  have hE : ((cfg0.win 2).blk t).view.emb (ix2 p q) = ix2 (rowOf t p) q := by
    funext a; apply Fin.ext
    match a with
    | ⟨0, _⟩ => show win0_2.index t (0 : Fin 2) * 200 + 1 * p.val = 200 * t.val + p.val; omega
    | ⟨1, _⟩ => show win0_2.index t (1 : Fin 2) * 640 + 1 * q.val = q.val; omega
  show k0_pay1 (F := Ideal) (iblk0 V c 0 t) (iblk0 V c 1 t) (ix2 p q) = mm (V c main_v2) (V c main_v0) (((cfg0.win 2).blk t).view.emb (ix2 p q))
  rw [hE, mm_apply]
  refine (pay_apply (iblk0 V c 0 t) (iblk0 V c 1 t) p q).trans ?_
  refine Finset.sum_congr rfl fun k _ => ?_
  have h0 : iblk0 V c 0 t (ix2 p k) = V c main_v2 (ix2 (rowOf t p) k) := by
    show V c main_v2 (((cfg0.win 0).blk t).view.emb (ix2 p k)) = V c main_v2 (ix2 (rowOf t p) k)
    refine congrArg (V c main_v2) (funext fun a => Fin.ext ?_)
    match a with
    | ⟨0, _⟩ => show win0_0.index t (0 : Fin 2) * 200 + 1 * p.val = 200 * t.val + p.val; omega
    | ⟨1, _⟩ => show win0_0.index t (1 : Fin 2) * 640 + 1 * k.val = k.val; omega
  have h1 : iblk0 V c 1 t (ix2 k q) = V c main_v0 (ix2 k q) := by
    show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 640 + 1 * k.val = k.val; omega
    | ⟨1, _⟩ => show win0_1.index t (1 : Fin 2) * 640 + 1 * q.val = q.val; omega
  rw [h0, h1]

/-- An index of the array is in point t's block iff each coordinate is in the block's range on its axis. -/
theorem mem_blk (t : Fin cfg0.N) (i : S800x640.Idx) :
    i ∈ ((cfg0.win 2).blk t).view.set ↔ ∀ a : Fin 2, win0_2.index t a * S200x640.size a ≤ (i a).val ∧ (i a).val < win0_2.index t a * S200x640.size a + S200x640.size a := by
  show i ∈ ((View.whole main_v4).slice (win0_2.rect t)).set ↔ _
  rw [View.set_slice_whole, Rect.mem_set_unit]
  exact Iff.rfl

/-- Every index of the array is in some point's block: row r is in the block of point r / 200. -/
theorem cover (i : S800x640.Idx) :
    ∃ t : Fin cfg0.N, (cfg0.win 2).flush t = true ∧ i ∈ ((cfg0.win 2).blk t).view.set := by
  have hi0 : (i 0).val < 800 := (i 0).isLt
  have hi1 : (i 1).val < 640 := (i 1).isLt
  let t : Fin cfg0.N := ⟨(i 0).val / 200, by rw [show cfg0.N = 4 from N_0]; omega⟩
  obtain ⟨e0, e1, e2, e3, e4, e5⟩ := idx_facts t
  have ht : t.val = (i 0).val / 200 := rfl
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 640 ≤ (i 1).val ∧ (i 1).val < win0_2.index t (1 : Fin 2) * 640 + 640; omega

/-- THE ARRAY AFTER THE REGION: the plain product of the two arrays the region finds. -/
theorem final (c : Dev nD) : (dat0 V c).arrAt 2 cfg0.N = mm (V c main_v2) (V c main_v0) :=
  (dat0 V c).arrAt_eq_of_cover 2 _ (fun t _ => flushed_eq V c t) (cover)

end Cert.KernelIdeal.Region0

end
-- ==== Proof.Region1.lean ====
/-
  The second projection region, as a value: whatever the region finds in its two input arrays, a [400, 640] matrix x
  and a [640, 640] matrix w, it leaves the plain product x * w in its output array.

  The grid has 2 points; point t takes rows 200 t .. 200 t + 199 of x, all of w, and writes rows 200 t .. 200 t + 199
  of the output. Inside a point the body's one store is the matrix product of the two loaded blocks into zeros, the
  changes of float format being the identity on the extended reals: entry (p, q) of the block is the sum over k of
  x(200 t + p, k) * w(k, q). So each written block is the same rows of the one whole-array product, and the two
  blocks cover all 400 rows.
-/
import proofs.«179707_j46170898432387_1_alg».proof.Proof.Gen.KernelIdeal.Frame
import proofs.«179707_j46170898432387_1_alg».proof.Proof.LibPlainDot
import proofs.«179707_j46170898432387_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The record of the body's product is the plain row-by-column form. -/
theorem plain : PlainDot.IsPlain dot_S200x640_S640x640_S200x640_1_0_0_1_n_n := ⟨rfl, rfl, rfl, rfl, rfl, rfl⟩

/-- The body's stored value at (p, q): the sum over k of the first block's (p, k) times the second block's (k, q). -/
theorem pay_apply (x0 : Vec Ideal S200x640 .f32) (x1 : Vec Ideal S640x640 .f32) (p : Fin 200) (q : Fin 640) :
    k1_pay1 (F := Ideal) x0 x1 (ix2 p q) = ∑ k : Fin 640, x0 (ix2 p k) * x1 (ix2 k q) := by
  unfold k1_pay1
  refine (PlainDot.matmul_zero_apply plain none _ _ p q).trans ?_
  refine Finset.sum_congr rfl fun k _ => ?_
  rw [shapeCast_self, shapeCast_self]
  rfl

/-- The index maps over the grid: the first input's and the output's row block is the point's number, every column
    block is the only one, the second input is fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 200 t + p of the array. -/
def rowOf (t : Fin cfg1.N) (p : Fin 200) : Fin 400 :=
  ⟨200 * t.val + p.val, by have ht : t.val < 2 := lt_of_lt_of_eq t.isLt N_1; have := p.isLt; omega⟩

/-- WHAT POINT t WRITES BACK is its block of the whole-array product of the two arrays the region finds. -/
theorem flushed_eq (c : Dev nD) (t : Fin cfg1.N) :
    (dat1 V c).flushed 2 t = ((cfg1.win 2).blk t).view.read (Elt Ideal) (mm (V c main_v3) (V c main_v1)) := by
  show (cfg1.win 2).cut (grid1.coords t) ((dat1 V c).after 2 t) = _
  rw [after1_2]
  unfold out1_2
  rw [View.canon_unit_zero origin2]
  simp only [View.ld_unit_zero (S := S200x640) origin2, View.ld_unit_zero (S := S640x640) origin2]
  obtain ⟨e0, e1, e2, e3, e4, e5⟩ := idx_facts t
  funext j
  obtain ⟨p, q, rfl⟩ : ∃ (p : Fin 200) (q : Fin 640), j = ix2 p q := ⟨j 0, j 1, eq_ix2 j⟩
  have hE : ((cfg1.win 2).blk t).view.emb (ix2 p q) = ix2 (rowOf t p) q := by
    funext a; apply Fin.ext
    match a with
    | ⟨0, _⟩ => show win1_2.index t (0 : Fin 2) * 200 + 1 * p.val = 200 * t.val + p.val; omega
    | ⟨1, _⟩ => show win1_2.index t (1 : Fin 2) * 640 + 1 * q.val = q.val; omega
  show k1_pay1 (F := Ideal) (iblk1 V c 0 t) (iblk1 V c 1 t) (ix2 p q) = mm (V c main_v3) (V c main_v1) (((cfg1.win 2).blk t).view.emb (ix2 p q))
  rw [hE, mm_apply]
  refine (pay_apply (iblk1 V c 0 t) (iblk1 V c 1 t) p q).trans ?_
  refine Finset.sum_congr rfl fun k _ => ?_
  have h0 : iblk1 V c 0 t (ix2 p k) = V c main_v3 (ix2 (rowOf t p) k) := by
    show V c main_v3 (((cfg1.win 0).blk t).view.emb (ix2 p k)) = V c main_v3 (ix2 (rowOf t p) k)
    refine congrArg (V c main_v3) (funext fun a => Fin.ext ?_)
    match a with
    | ⟨0, _⟩ => show win1_0.index t (0 : Fin 2) * 200 + 1 * p.val = 200 * t.val + p.val; omega
    | ⟨1, _⟩ => show win1_0.index t (1 : Fin 2) * 640 + 1 * k.val = k.val; omega
  have h1 : iblk1 V c 1 t (ix2 k q) = V c main_v1 (ix2 k q) := by
    show V c main_v1 (((cfg1.win 1).blk t).view.emb (ix2 k q)) = V c main_v1 (ix2 k q)
    refine congrArg (V c main_v1) (funext fun a => Fin.ext ?_)
    match a with
    | ⟨0, _⟩ => show win1_1.index t (0 : Fin 2) * 640 + 1 * k.val = k.val; omega
    | ⟨1, _⟩ => show win1_1.index t (1 : Fin 2) * 640 + 1 * q.val = q.val; omega
  rw [h0, h1]

/-- An index of the array is in point t's block iff each coordinate is in the block's range on its axis. -/
theorem mem_blk (t : Fin cfg1.N) (i : S400x640.Idx) :
    i ∈ ((cfg1.win 2).blk t).view.set ↔ ∀ a : Fin 2, win1_2.index t a * S200x640.size a ≤ (i a).val ∧ (i a).val < win1_2.index t a * S200x640.size a + S200x640.size a := by
  show i ∈ ((View.whole main_v5).slice (win1_2.rect t)).set ↔ _
  rw [View.set_slice_whole, Rect.mem_set_unit]
  exact Iff.rfl

/-- Every index of the array is in some point's block: row r is in the block of point r / 200. -/
theorem cover (i : S400x640.Idx) :
    ∃ t : Fin cfg1.N, (cfg1.win 2).flush t = true ∧ i ∈ ((cfg1.win 2).blk t).view.set := by
  have hi0 : (i 0).val < 400 := (i 0).isLt
  have hi1 : (i 1).val < 640 := (i 1).isLt
  let t : Fin cfg1.N := ⟨(i 0).val / 200, by rw [show cfg1.N = 2 from N_1]; omega⟩
  obtain ⟨e0, e1, e2, e3, e4, e5⟩ := idx_facts t
  have ht : t.val = (i 0).val / 200 := rfl
  refine ⟨t, flush1_2 t, ?_⟩
  rw [mem_blk]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 640 ≤ (i 1).val ∧ (i 1).val < win1_2.index t (1 : Fin 2) * 640 + 640; omega

/-- THE ARRAY AFTER THE REGION: the plain product of the two arrays the region finds. -/
theorem final (c : Dev nD) : (dat1 V c).arrAt 2 cfg1.N = mm (V c main_v3) (V c main_v1) :=
  (dat1 V c).arrAt_eq_of_cover 2 _ (fun t _ => flushed_eq V c t) (cover)

end Cert.KernelIdeal.Region1

end
-- ==== Proof.Region2.lean ====
/-
  The joint region, as a value: whatever the region finds in its five input arrays — a projection he : [4, 200, 640],
  a projection hp : [4, 100, 640], a one-row matrix b1 : [1, 640], a matrix w2 : [640, 1024] and a one-row matrix
  b2 : [1, 1024] — it leaves in its output array, at (b, t, u, v),

      (sum over j < 640 of silu((he(b, t, j) + hp(b, u, j)) + b1(0, j)) * w2(j, v)) + b2(0, v).

  The grid has 4 * 25 * 2 points; point (b, n, h) takes rows 8 n .. 8 n + 7 of he's batch b, all of hp's batch b, b1,
  columns 512 h .. 512 h + 511 of w2 and of b2, and writes the block [b, 8 n .. 8 n + 7, all u, 512 h .. 512 h + 511].
  Inside a point the body broadcasts the 8 rows and the 100 rows against each other, adds the bias row, applies
  x * logistic(x), flattens (row a, row u) to row 100 a + u of an [800, 640] matrix, multiplies by the w2 block into
  zeros, adds the b2 block's row and unflattens; the changes of float format are the identity on the extended reals.
  So each written block is the same entries of the one whole-array function, and the blocks cover the array.
-/
import proofs.«179707_j46170898432387_1_alg».proof.Proof.Gen.KernelIdeal.Frame
import proofs.«179707_j46170898432387_1_alg».proof.Proof.LibPlainDot
import proofs.«179707_j46170898432387_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

/-! ## Layout operations of the body read at an index -/

section Layout
variable {α : Type}

/-- Row 100 a + u of the flattened [800, ·] matrix. -/
def flat (a : Fin 8) (u : Fin 100) : Fin 800 := ⟨a.val * 100 + u.val, by have := a.isLt; have := u.isLt; omega⟩

/-- An [8, c] array cast to [8, 1, c] reads, at (a, z, k), the operand at (a, k). -/
theorem cast_mid_unit {c : ℕ} (x : (⟨2, ![8, c]⟩ : Shape).Idx → α) (h : (⟨2, ![8, c]⟩ : Shape).ShapeCasts ⟨3, ![8, 1, c]⟩)
    (a : Fin 8) (z : Fin 1) (k : Fin c) : shapeCast ⟨3, ![8, 1, c]⟩ x h (ix3 a z k) = x (ix2 a k) :=
  shapeCast_apply x h _ _ (by
    have hz : z.val = 0 := by omega
    rw [Shape.rowMajor_val_three, Shape.rowMajor_val_two]
    show a.val * c + k.val = (a.val * 1 + z.val) * c + k.val
    rw [hz, Nat.mul_one, Nat.add_zero])

/-- An [8, 100, c] array cast to [800, c] reads, at (100 a + u, k), the operand at (a, u, k). -/
theorem cast_flatten {c : ℕ} (x : (⟨3, ![8, 100, c]⟩ : Shape).Idx → α) (h : (⟨3, ![8, 100, c]⟩ : Shape).ShapeCasts ⟨2, ![800, c]⟩)
    (a : Fin 8) (u : Fin 100) (k : Fin c) : shapeCast ⟨2, ![800, c]⟩ x h (ix2 (flat a u) k) = x (ix3 a u k) :=
  shapeCast_apply x h _ _ (by
    rw [Shape.rowMajor_val_three, Shape.rowMajor_val_two]
    rfl)

/-- An [800, c] array cast to [8, 100, c] reads, at (a, u, k), the operand at (100 a + u, k). -/
theorem cast_unflatten {c : ℕ} (x : (⟨2, ![800, c]⟩ : Shape).Idx → α) (h : (⟨2, ![800, c]⟩ : Shape).ShapeCasts ⟨3, ![8, 100, c]⟩)
    (a : Fin 8) (u : Fin 100) (k : Fin c) : shapeCast ⟨3, ![8, 100, c]⟩ x h (ix3 a u k) = x (ix2 (flat a u) k) :=
  shapeCast_apply x h _ _ (by
    rw [Shape.rowMajor_val_three, Shape.rowMajor_val_two]
    rfl)

/-- An [8, 1, 640] array broadcast to [8, 100, 640] reads, at (a, u, k), the operand at (a, 0, k). -/
theorem bcast_rows8 (x : (⟨3, ![8, 1, 640]⟩ : Shape).Idx → α) (h : (⟨3, ![8, 1, 640]⟩ : Shape).Broadcasts ⟨3, ![8, 100, 640]⟩)
    (a : Fin 8) (u : Fin 100) (k : Fin 640) : broadcastTo ⟨3, ![8, 100, 640]⟩ x h (ix3 a u k) = x (ix3 a (0 : Fin 1) k) := by
  refine broadcastTo_apply x h (ix3 a u k) (ix3 a (0 : Fin 1) k) fun ax => ?_
  match ax with
  | ⟨0, _⟩ => show a.val = if (8 : Nat) = 1 then 0 else a.val; rw [if_neg (by decide)]
  | ⟨1, _⟩ => show 0 = if (1 : Nat) = 1 then 0 else u.val; rw [if_pos rfl]
  | ⟨2, _⟩ => show k.val = if (640 : Nat) = 1 then 0 else k.val; rw [if_neg (by decide)]

/-- A [1, 100, 640] array broadcast to [8, 100, 640] reads, at (a, u, k), the operand at (0, u, k). -/
theorem bcast_rows100 (x : (⟨3, ![1, 100, 640]⟩ : Shape).Idx → α) (h : (⟨3, ![1, 100, 640]⟩ : Shape).Broadcasts ⟨3, ![8, 100, 640]⟩)
    (a : Fin 8) (u : Fin 100) (k : Fin 640) : broadcastTo ⟨3, ![8, 100, 640]⟩ x h (ix3 a u k) = x (ix3 (0 : Fin 1) u k) := by
  refine broadcastTo_apply x h (ix3 a u k) (ix3 (0 : Fin 1) u k) fun ax => ?_
  match ax with
  | ⟨0, _⟩ => show 0 = if (1 : Nat) = 1 then 0 else a.val; rw [if_pos rfl]
  | ⟨1, _⟩ => show u.val = if (100 : Nat) = 1 then 0 else u.val; rw [if_neg (by decide)]
  | ⟨2, _⟩ => show k.val = if (640 : Nat) = 1 then 0 else k.val; rw [if_neg (by decide)]

/-- A [1, 1, 640] array broadcast to [8, 100, 640] reads, at (a, u, k), the operand at (0, 0, k). -/
theorem bcast_bias (x : (⟨3, ![1, 1, 640]⟩ : Shape).Idx → α) (h : (⟨3, ![1, 1, 640]⟩ : Shape).Broadcasts ⟨3, ![8, 100, 640]⟩)
    (a : Fin 8) (u : Fin 100) (k : Fin 640) : broadcastTo ⟨3, ![8, 100, 640]⟩ x h (ix3 a u k) = x (ix3 (0 : Fin 1) (0 : Fin 1) k) := by
  refine broadcastTo_apply x h (ix3 a u k) (ix3 (0 : Fin 1) (0 : Fin 1) k) fun ax => ?_
  match ax with
  | ⟨0, _⟩ => show 0 = if (1 : Nat) = 1 then 0 else a.val; rw [if_pos rfl]
  | ⟨1, _⟩ => show 0 = if (1 : Nat) = 1 then 0 else u.val; rw [if_pos rfl]
  | ⟨2, _⟩ => show k.val = if (640 : Nat) = 1 then 0 else k.val; rw [if_neg (by decide)]

end Layout

/-! ## The body's stored value at an index -/

/-- The record of the body's product is the plain row-by-column form. -/
theorem plain : PlainDot.IsPlain dot_S800x640_S640x512_S800x512_1_0_0_1_n_n := ⟨rfl, rfl, rfl, rfl, rfl, rfl⟩

/-- Before the activation: the two broadcast blocks added, then the bias row. -/
theorem pre_apply (x0 : Vec Ideal S1x8x640 .f32) (x1 : Vec Ideal S1x100x640 .f32) (x2 : Vec Ideal S1x640 .f32)
    (h1 h2 h3 h4 h5 h6 h7 h8 h9) (a : Fin 8) (u : Fin 100) (k : Fin 640) :
    (addf (addf (broadcastTo S8x100x640 (shapeCast S8x1x640 (shapeCast S8x640 x0 h1) h2) h3)
                (broadcastTo S8x100x640 (shapeCast S1x100x640 (shapeCast S100x640 x1 h4) h5) h6))
          (broadcastTo S8x100x640 (shapeCast S1x1x640 (shapeCast S1x640 x2 h7) h8) h9) : FVec Ideal S8x100x640 .f32) (ix3 a u k)
      = (x0 (ix3 (0 : Fin 1) a k) + x1 (ix3 (0 : Fin 1) u k)) + x2 (ix2 (0 : Fin 1) k) := by
  rw [addf_apply, addf_apply, bcast_rows8, bcast_rows100, bcast_bias, cast_mid_unit, shapeCast_1ab_ab_apply,
    shapeCast_ab_1ab_apply, shapeCast_1ab_ab_apply, shapeCast_ab_1ab_apply, shapeCast_self]

/-- The activation at an index acts on the entry. -/
theorem logistic_apply {s : Shape} {φ : FTy} (x : FVec Ideal s φ) (i : s.Idx) : logistic x i = Ideal.logistic (x i) := rfl

/-- The body's stored value at (0, a, u, v): the joint stage of the five loaded blocks. -/
theorem pay_apply (x0 : Vec Ideal S1x8x640 .f32) (x1 : Vec Ideal S1x100x640 .f32) (x2 : Vec Ideal S1x640 .f32)
    (x3 : Vec Ideal S640x512 .f32) (x4 : Vec Ideal S1x512 .f32) (a : Fin 8) (u : Fin 100) (v : Fin 512) :
    k2_pay1 (F := Ideal) x0 x1 x2 x3 x4 (ix4 (0 : Fin 1) a u v)
      = (∑ k : Fin 640, silu ((x0 (ix3 (0 : Fin 1) a k) + x1 (ix3 (0 : Fin 1) u k)) + x2 (ix2 (0 : Fin 1) k)) * x3 (ix2 k v))
        + x4 (ix2 (0 : Fin 1) v) := by
  unfold k2_pay1
  refine (shapeCast_abc_1abc_apply _ _ (0 : Fin 1) a u v).trans ?_
  refine (cast_unflatten _ _ a u v).trans ?_
  rw [addf_apply]
  congr 1
  · refine (PlainDot.matmul_zero_apply plain none _ _ (flat a u) v).trans ?_
    refine Finset.sum_congr rfl fun k _ => ?_
    rw [truncf_apply, truncf_apply, cast_flatten, mulf_apply, logistic_apply, pre_apply]
    rfl
  · rw [broadcastTo_1b_ab_apply, shapeCast_self]

/-! ## The blocks, and the array after the region -/

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-- The index maps over the grid, each input's block index against the output's: he moves with the output's batch
    and row block, hp with its batch, the bias row is fetched whole, w2 and b2 move with the output's column block;
    the output's block indices stay in their ranges. -/
theorem idx_facts : ∀ t : Fin cfg2.N,
    win2_0.index t (0 : Fin 3) = win2_5.index t (0 : Fin 4) ∧ win2_0.index t (1 : Fin 3) = win2_5.index t (1 : Fin 4)
    ∧ win2_0.index t (2 : Fin 3) = 0
    ∧ win2_1.index t (0 : Fin 3) = win2_5.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = win2_5.index t (3 : Fin 4)
    ∧ win2_4.index t (0 : Fin 2) = 0 ∧ win2_4.index t (1 : Fin 2) = win2_5.index t (3 : Fin 4)
    ∧ win2_5.index t (0 : Fin 4) ≤ 3 ∧ win2_5.index t (1 : Fin 4) ≤ 24 ∧ win2_5.index t (2 : Fin 4) = 0
    ∧ win2_5.index t (3 : Fin 4) ≤ 1 :=
  (by decide +kernel : ∀ t : Fin grid2.N, _)

/-- Every block of the output is some point's. -/
theorem idx_onto : ∀ (q0 : Fin 4) (q1 : Fin 25) (q3 : Fin 2), ∃ t : Fin cfg2.N, win2_5.index t = ![q0.val, q1.val, 0, q3.val] :=
  (by decide +kernel : ∀ (q0 : Fin 4) (q1 : Fin 25) (q3 : Fin 2), ∃ t : Fin grid2.N, win2_5.index t = ![q0.val, q1.val, 0, q3.val])

/-- Point t's batch, its row a of the 8 as a row of the 200, and its column v of the 512 as a column of the 1024. -/
def batchOf (t : Fin cfg2.N) : Fin 4 := ⟨win2_5.index t (0 : Fin 4), by have := (idx_facts t).2.2.2.2.2.2.2.2.2.2.2.2.1; omega⟩
def rowOf (t : Fin cfg2.N) (a : Fin 8) : Fin 200 :=
  ⟨win2_5.index t (1 : Fin 4) * 8 + a.val, by have := (idx_facts t).2.2.2.2.2.2.2.2.2.2.2.2.2.1; have := a.isLt; omega⟩
def colOf (t : Fin cfg2.N) (v : Fin 512) : Fin 1024 :=
  ⟨win2_5.index t (3 : Fin 4) * 512 + v.val, by have := (idx_facts t).2.2.2.2.2.2.2.2.2.2.2.2.2.2.2; have := v.isLt; omega⟩

/-- WHAT POINT t WRITES BACK is its block of the whole-array joint stage of the five arrays the region finds. -/
theorem flushed_eq (c : Dev nD) (t : Fin cfg2.N) :
    (dat2 V c).flushed 5 t = ((cfg2.win 5).blk t).view.read (Elt Ideal)
      (joint (V c main_v6) (V c main_v7) (V c main_v8) (V c main_arg4) (V c main_v9)) := by
  show (cfg2.win 5).cut (grid2.coords t) ((dat2 V c).after 5 t) = _
  rw [after2_5]
  unfold out2_5
  rw [View.canon_unit_zero origin4]
  simp only [View.ld_unit_zero (S := S1x8x640) origin3, View.ld_unit_zero (S := S1x100x640) origin3,
    View.ld_unit_zero (S := S1x640) origin2, View.ld_unit_zero (S := S640x512) origin2, View.ld_unit_zero (S := S1x512) origin2]
  obtain ⟨e00, e01, e02, e10, e11, e12, e20, e21, e30, e31, e40, e41, b0, b1, e52, b3⟩ := idx_facts t
  funext j
  obtain ⟨z, a, u, v, rfl⟩ : ∃ (z : Fin 1) (a : Fin 8) (u : Fin 100) (v : Fin 512), j = ix4 z a u v := ⟨j 0, j 1, j 2, j 3, eq_ix4 j⟩
  obtain rfl : z = 0 := Subsingleton.elim _ _
  have hE : ((cfg2.win 5).blk t).view.emb (ix4 (0 : Fin 1) a u v) = ix4 (batchOf t) (rowOf t a) u (colOf t v) := by
    funext ax; apply Fin.ext
    match ax with
    | ⟨0, _⟩ => show win2_5.index t (0 : Fin 4) * 1 + 1 * 0 = win2_5.index t (0 : Fin 4); omega
    | ⟨1, _⟩ => show win2_5.index t (1 : Fin 4) * 8 + 1 * a.val = win2_5.index t (1 : Fin 4) * 8 + a.val; omega
    | ⟨2, _⟩ => show win2_5.index t (2 : Fin 4) * 100 + 1 * u.val = u.val; omega
    | ⟨3, _⟩ => show win2_5.index t (3 : Fin 4) * 512 + 1 * v.val = win2_5.index t (3 : Fin 4) * 512 + v.val; omega
  show k2_pay1 (F := Ideal) (iblk2 V c 0 t) (iblk2 V c 1 t) (iblk2 V c 2 t) (iblk2 V c 3 t) (iblk2 V c 4 t) (ix4 (0 : Fin 1) a u v)
    = joint (V c main_v6) (V c main_v7) (V c main_v8) (V c main_arg4) (V c main_v9) (((cfg2.win 5).blk t).view.emb (ix4 (0 : Fin 1) a u v))
  rw [hE, joint_apply]
  unfold jointAt
  refine (pay_apply (iblk2 V c 0 t) (iblk2 V c 1 t) (iblk2 V c 2 t) (iblk2 V c 3 t) (iblk2 V c 4 t) a u v).trans ?_
  have h0 : ∀ k : Fin 640, iblk2 V c 0 t (ix3 (0 : Fin 1) a k) = V c main_v6 (ix3 (batchOf t) (rowOf t a) k) := fun k => by
    show V c main_v6 (((cfg2.win 0).blk t).view.emb (ix3 (0 : Fin 1) a k)) = V c main_v6 (ix3 (batchOf t) (rowOf t a) k)
    refine congrArg (V c main_v6) (funext fun ax => Fin.ext ?_)
    match ax with
    | ⟨0, _⟩ => show win2_0.index t (0 : Fin 3) * 1 + 1 * 0 = win2_5.index t (0 : Fin 4); omega
    | ⟨1, _⟩ => show win2_0.index t (1 : Fin 3) * 8 + 1 * a.val = win2_5.index t (1 : Fin 4) * 8 + a.val; omega
    | ⟨2, _⟩ => show win2_0.index t (2 : Fin 3) * 640 + 1 * k.val = k.val; omega
  have h1 : ∀ k : Fin 640, iblk2 V c 1 t (ix3 (0 : Fin 1) u k) = V c main_v7 (ix3 (batchOf t) u k) := fun k => by
    show V c main_v7 (((cfg2.win 1).blk t).view.emb (ix3 (0 : Fin 1) u k)) = V c main_v7 (ix3 (batchOf t) u k)
    refine congrArg (V c main_v7) (funext fun ax => Fin.ext ?_)
    match ax with
    | ⟨0, _⟩ => show win2_1.index t (0 : Fin 3) * 1 + 1 * 0 = win2_5.index t (0 : Fin 4); omega
    | ⟨1, _⟩ => show win2_1.index t (1 : Fin 3) * 100 + 1 * u.val = u.val; omega
    | ⟨2, _⟩ => show win2_1.index t (2 : Fin 3) * 640 + 1 * k.val = k.val; omega
  have h2 : ∀ k : Fin 640, iblk2 V c 2 t (ix2 (0 : Fin 1) k) = V c main_v8 (ix2 (0 : Fin 1) k) := fun k => by
    show V c main_v8 (((cfg2.win 2).blk t).view.emb (ix2 (0 : Fin 1) k)) = V c main_v8 (ix2 (0 : Fin 1) k)
    refine congrArg (V c main_v8) (funext fun ax => Fin.ext ?_)
    match ax with
    | ⟨0, _⟩ => show win2_2.index t (0 : Fin 2) * 1 + 1 * 0 = 0; omega
    | ⟨1, _⟩ => show win2_2.index t (1 : Fin 2) * 640 + 1 * k.val = k.val; omega
  have h3 : ∀ k : Fin 640, iblk2 V c 3 t (ix2 k v) = V c main_arg4 (ix2 k (colOf t v)) := fun k => by
    show V c main_arg4 (((cfg2.win 3).blk t).view.emb (ix2 k v)) = V c main_arg4 (ix2 k (colOf t v))
    refine congrArg (V c main_arg4) (funext fun ax => Fin.ext ?_)
    match ax with
    | ⟨0, _⟩ => show win2_3.index t (0 : Fin 2) * 640 + 1 * k.val = k.val; omega
    | ⟨1, _⟩ => show win2_3.index t (1 : Fin 2) * 512 + 1 * v.val = win2_5.index t (3 : Fin 4) * 512 + v.val; omega
  have h4 : iblk2 V c 4 t (ix2 (0 : Fin 1) v) = V c main_v9 (ix2 (0 : Fin 1) (colOf t v)) := by
    show V c main_v9 (((cfg2.win 4).blk t).view.emb (ix2 (0 : Fin 1) v)) = V c main_v9 (ix2 (0 : Fin 1) (colOf t v))
    refine congrArg (V c main_v9) (funext fun ax => Fin.ext ?_)
    match ax with
    | ⟨0, _⟩ => show win2_4.index t (0 : Fin 2) * 1 + 1 * 0 = 0; omega
    | ⟨1, _⟩ => show win2_4.index t (1 : Fin 2) * 512 + 1 * v.val = win2_5.index t (3 : Fin 4) * 512 + v.val; omega
  exact congrArg₂ (· + ·) (Finset.sum_congr rfl fun k _ =>
    congrArg₂ (· * ·) (congrArg silu (congrArg₂ (· + ·) (congrArg₂ (· + ·) (h0 k) (h1 k)) (h2 k))) (h3 k)) h4

/-- An index of the array is in point t's block iff each coordinate is in the block's range on its axis. -/
theorem mem_blk (t : Fin cfg2.N) (i : S4x200x100x1024.Idx) :
    i ∈ ((cfg2.win 5).blk t).view.set ↔ ∀ a : Fin 4, win2_5.index t a * S1x8x100x512.size a ≤ (i a).val ∧ (i a).val < win2_5.index t a * S1x8x100x512.size a + S1x8x100x512.size a := by
  show i ∈ ((View.whole main_v10).slice (win2_5.rect t)).set ↔ _
  rw [View.set_slice_whole, Rect.mem_set_unit]
  exact Iff.rfl

/-- Every index of the array is in some point's block: (b, r, u, v) is in the block of batch b, row block r / 8 and
    column block v / 512. -/
theorem cover (i : S4x200x100x1024.Idx) :
    ∃ t : Fin cfg2.N, (cfg2.win 5).flush t = true ∧ i ∈ ((cfg2.win 5).blk t).view.set := by
  have hi0 : (i 0).val < 4 := (i 0).isLt
  have hi1 : (i 1).val < 200 := (i 1).isLt
  have hi2 : (i 2).val < 100 := (i 2).isLt
  have hi3 : (i 3).val < 1024 := (i 3).isLt
  obtain ⟨t, ht⟩ := idx_onto ⟨(i 0).val, hi0⟩ ⟨(i 1).val / 8, by omega⟩ ⟨(i 3).val / 512, by omega⟩
  have q0 : win2_5.index t (0 : Fin 4) = (i 0).val := congrFun ht 0
  have q1 : win2_5.index t (1 : Fin 4) = (i 1).val / 8 := congrFun ht 1
  have q2 : win2_5.index t (2 : Fin 4) = 0 := congrFun ht 2
  have q3 : win2_5.index t (3 : Fin 4) = (i 3).val / 512 := congrFun ht 3
  refine ⟨t, flush2_5 t, ?_⟩
  rw [mem_blk]
  intro a
  match a with
  | ⟨0, _⟩ => show win2_5.index t (0 : Fin 4) * 1 ≤ (i 0).val ∧ (i 0).val < win2_5.index t (0 : Fin 4) * 1 + 1; omega
  | ⟨1, _⟩ => show win2_5.index t (1 : Fin 4) * 8 ≤ (i 1).val ∧ (i 1).val < win2_5.index t (1 : Fin 4) * 8 + 8; omega
  | ⟨2, _⟩ => show win2_5.index t (2 : Fin 4) * 100 ≤ (i 2).val ∧ (i 2).val < win2_5.index t (2 : Fin 4) * 100 + 100; omega
  | ⟨3, _⟩ => show win2_5.index t (3 : Fin 4) * 512 ≤ (i 3).val ∧ (i 3).val < win2_5.index t (3 : Fin 4) * 512 + 512; omega

/-- THE ARRAY AFTER THE REGION: the joint stage of the five arrays the region finds. -/
theorem final (c : Dev nD) :
    (dat2 V c).arrAt 5 cfg2.N = joint (V c main_v6) (V c main_v7) (V c main_v8) (V c main_arg4) (V c main_v9) :=
  (dat2 V c).arrAt_eq_of_cover 5 _ (fun t _ => flushed_eq V c t) (cover)

end Cert.KernelIdeal.Region2

end
-- ==== Proof.Fold.lean ====
/-
  The result buffer after @main, as the one function of the argument arrays.

  @main is a fold of buffer contents through five segments: four host operations (the two halves of W1's rows sliced
  out, enc and pred flattened to [800, 640] and [400, 640]), the two projection regions, four more host operations
  (the projections unflattened to [4, 200, 640] and [4, 100, 640], the two biases made one-row matrices), and the
  joint region. Each region leaves in its output array a function of the arrays it finds (the plain product; the
  joint stage), and no segment writes a buffer an earlier one produced, so the contents at the last boundary unfold,
  buffer by buffer, to the argument arrays.

  Read at an index: flattening (b, t) to row 200 b + t and back is the identity on indices, so the unflattened first
  projection at (b, t, j) is the sum over d of enc(b, t, d) * W1(d, j), the second at (b, u, j) is the sum over d of
  pred(b, u, d) * W1(640 + d, j), and the joint stage of these is the specification.
-/
import proofs.«179707_j46170898432387_1_alg».proof.Proof.Gen.KernelIdeal.Frame
import proofs.«179707_j46170898432387_1_alg».proof.Proof.Region0
import proofs.«179707_j46170898432387_1_alg».proof.Proof.Region1
import proofs.«179707_j46170898432387_1_alg».proof.Proof.Region2
import proofs.«179707_j46170898432387_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fold

open Cert.KernelIdeal Cert.KernelIdeal.Gen Cert.Spec
open Idealize.ShloMosaic Idealize.ShloMosaic.TcCoe Idealize.SL.Sem Idealize.ShloMosaic.ValueIdx Idealize.ShloMosaic.StableHlo

/-! ## Flattening two leading axes into one, read at an index -/

section Layout
variable {α : Type}

/-- Row T b + t of the flattened array. -/
def merge {B T R : ℕ} (hR : B * T = R) (b : Fin B) (t : Fin T) : Fin R :=
  ⟨b.val * T + t.val, hR ▸ Nat.lt_of_lt_of_le (Nat.add_lt_add_left t.isLt _)
    (by rw [← Nat.succ_mul]; exact Nat.mul_le_mul_right _ b.isLt)⟩

/-- A [B, T, c] array cast to [B T, c] reads, at (T b + t, k), the operand at (b, t, k). -/
theorem cast_merge {B T R c : ℕ} (hR : B * T = R) (x : (⟨3, ![B, T, c]⟩ : Shape).Idx → α)
    (h : (⟨3, ![B, T, c]⟩ : Shape).ShapeCasts ⟨2, ![R, c]⟩) (b : Fin B) (t : Fin T) (k : Fin c) :
    shapeCast ⟨2, ![R, c]⟩ x h (ix2 (merge hR b t) k) = x (ix3 b t k) :=
  shapeCast_apply x h _ _ (by rw [Shape.rowMajor_val_three, Shape.rowMajor_val_two]; rfl)

/-- A [B T, c] array cast to [B, T, c] reads, at (b, t, k), the operand at (T b + t, k). -/
theorem cast_split {B T R c : ℕ} (hR : B * T = R) (x : (⟨2, ![R, c]⟩ : Shape).Idx → α)
    (h : (⟨2, ![R, c]⟩ : Shape).ShapeCasts ⟨3, ![B, T, c]⟩) (b : Fin B) (t : Fin T) (k : Fin c) :
    shapeCast ⟨3, ![B, T, c]⟩ x h (ix3 b t k) = x (ix2 (merge hR b t) k) :=
  shapeCast_apply x h _ _ (by rw [Shape.rowMajor_val_three, Shape.rowMajor_val_two]; rfl)

/-- Flattened enc times the upper half of W1's rows, unflattened: the encoder projection. -/
theorem enc_stage (x : A3 4 200 640) (w : A2 1280 640) (h1 : (⟨3, ![4, 200, 640]⟩ : Shape).ShapeCasts ⟨2, ![800, 640]⟩)
    (h2 : (⟨2, ![1280, 640]⟩ : Shape).Slices ![0, 0] ⟨2, ![640, 640]⟩)
    (h3 : (⟨2, ![800, 640]⟩ : Shape).ShapeCasts ⟨3, ![4, 200, 640]⟩) :
    shapeCast ⟨3, ![4, 200, 640]⟩ (mm (shapeCast ⟨2, ![800, 640]⟩ x h1) (extractStridedSlice ⟨2, ![640, 640]⟩ ![0, 0] w h2)) h3
      = encProj x w := by
  funext i
  obtain ⟨b, t, j, rfl⟩ : ∃ (b : Fin 4) (t : Fin 200) (j : Fin 640), i = ix3 b t j := ⟨i 0, i 1, i 2, eq_ix3 i⟩
  rw [cast_split (show 4 * 200 = 800 from rfl), mm_apply, encProj_apply]
  refine Finset.sum_congr rfl fun d _ => ?_
  rw [cast_merge (show 4 * 200 = 800 from rfl)]
  refine congrArg _ ?_
  exact extractStridedSlice_apply ![0, 0] w h2 (ix2 d j) (ix2 (upper d) j) (fun a => match a with
    | ⟨0, _⟩ => by show d.val = 0 + d.val; omega
    | ⟨1, _⟩ => by show j.val = 0 + j.val; omega)

/-- Flattened pred times the lower half of W1's rows, unflattened: the predictor projection. -/
theorem pred_stage (x : A3 4 100 640) (w : A2 1280 640) (h1 : (⟨3, ![4, 100, 640]⟩ : Shape).ShapeCasts ⟨2, ![400, 640]⟩)
    (h2 : (⟨2, ![1280, 640]⟩ : Shape).Slices ![640, 0] ⟨2, ![640, 640]⟩)
    (h3 : (⟨2, ![400, 640]⟩ : Shape).ShapeCasts ⟨3, ![4, 100, 640]⟩) :
    shapeCast ⟨3, ![4, 100, 640]⟩ (mm (shapeCast ⟨2, ![400, 640]⟩ x h1) (extractStridedSlice ⟨2, ![640, 640]⟩ ![640, 0] w h2)) h3
      = predProj x w := by
  funext i
  obtain ⟨b, u, j, rfl⟩ : ∃ (b : Fin 4) (u : Fin 100) (j : Fin 640), i = ix3 b u j := ⟨i 0, i 1, i 2, eq_ix3 i⟩
  rw [cast_split (show 4 * 100 = 400 from rfl), mm_apply, predProj_apply]
  refine Finset.sum_congr rfl fun d _ => ?_
  rw [cast_merge (show 4 * 100 = 400 from rfl)]
  refine congrArg _ ?_
  exact extractStridedSlice_apply ![640, 0] w h2 (ix2 d j) (ix2 (lower d) j) (fun a => match a with
    | ⟨0, _⟩ => by show 640 + d.val = 640 + d.val; omega
    | ⟨1, _⟩ => by show j.val = 0 + j.val; omega)

/-- A vector cast to a one-row matrix is that row. -/
theorem row_stage {n : ℕ} (x : A1 n) (h : (⟨1, ![n]⟩ : Shape).ShapeCasts ⟨2, ![1, n]⟩) : shapeCast ⟨2, ![1, n]⟩ x h = row x := by
  funext i
  obtain ⟨z, j, rfl⟩ : ∃ (z : Fin 1) (j : Fin n), i = ix2 z j := ⟨i 0, i 1, eq_ix2 i⟩
  exact shapeCast_a_1a_apply x h z j

end Layout

variable (m : (ℓ : Loc nD τ sig) → Buf (Elt Ideal) ℓ) (ρ : Dev nD → PrngReg)

/-! ## After the first host stretch -/

theorem W1_v0 (c : Dev nD) : W1 m ρ c (Proc.devRef .tc main_v0)
    = extractStridedSlice S640x640 ![0, 0] (m ((c : Thread nD τ).loc main_arg2)) slices_S1280x640_S640x640_0_0 := by
  show StableHlo.after hostOps0 (W0 m ρ c) (Proc.devRef .tc main_v0) = _
  after_results <;> rfl

theorem W1_v1 (c : Dev nD) : W1 m ρ c (Proc.devRef .tc main_v1)
    = extractStridedSlice S640x640 ![640, 0] (m ((c : Thread nD τ).loc main_arg2)) slices_S1280x640_S640x640_640_0 := by
  show StableHlo.after hostOps0 (W0 m ρ c) (Proc.devRef .tc main_v1) = _
  after_results <;> rfl

theorem W1_v2 (c : Dev nD) : W1 m ρ c (Proc.devRef .tc main_v2)
    = shapeCast S800x640 (m ((c : Thread nD τ).loc main_arg0)) shapeCasts_S4x200x640_S800x640 := by
  show StableHlo.after hostOps0 (W0 m ρ c) (Proc.devRef .tc main_v2) = _
  after_results <;> rfl

theorem W1_v3 (c : Dev nD) : W1 m ρ c (Proc.devRef .tc main_v3)
    = shapeCast S400x640 (m ((c : Thread nD τ).loc main_arg1)) shapeCasts_S4x100x640_S400x640 := by
  show StableHlo.after hostOps0 (W0 m ρ c) (Proc.devRef .tc main_v3) = _
  after_results <;> rfl

theorem W1_arg (c : Dev nD) (b : Ref sig .tc) (h : StableHlo.after hostOps0 (W0 m ρ c) (Proc.devRef .tc b) = W0 m ρ c (Proc.devRef .tc b)) :
    W1 m ρ c (Proc.devRef .tc b) = m ((c : Thread nD τ).loc b) := h

/-! ## After the two projection regions -/

/-- The first projection's output array: the product of flattened enc by the upper half of W1. -/
theorem W3_v4 (c : Dev nD) : W3 m ρ c (Proc.devRef .tc main_v4)
    = mm (W1 m ρ c (Proc.devRef .tc main_v2)) (W1 m ρ c (Proc.devRef .tc main_v0)) :=
  calc W3 m ρ c (Proc.devRef .tc main_v4)
    _ = W2 m ρ c (Proc.devRef .tc main_v4) := W3_of_ne m ρ c main_v4 (by decide)
    _ = (dat0 (V1 m ρ) c).arrAt 2 cfg0.N := W2_arr m ρ c 2
    _ = _ := Region0.final (V1 m ρ) c

/-- The second projection's output array: the product of flattened pred by the lower half of W1. -/
theorem W3_v5 (c : Dev nD) : W3 m ρ c (Proc.devRef .tc main_v5)
    = mm (W1 m ρ c (Proc.devRef .tc main_v3)) (W1 m ρ c (Proc.devRef .tc main_v1)) :=
  calc W3 m ρ c (Proc.devRef .tc main_v5)
    _ = (dat1 (V2 m ρ) c).arrAt 2 cfg1.N := W3_arr m ρ c 2
    _ = mm (V2 m ρ c main_v3) (V2 m ρ c main_v1) := Region1.final (V2 m ρ) c
    _ = _ := by
      rw [show V2 m ρ c main_v3 = W1 m ρ c (Proc.devRef .tc main_v3) from W2_of_ne m ρ c main_v3 (by decide),
        show V2 m ρ c main_v1 = W1 m ρ c (Proc.devRef .tc main_v1) from W2_of_ne m ρ c main_v1 (by decide)]

/-! ## The argument arrays are never written -/

theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

theorem W3_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg3 m ρ c))
theorem W3_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_arg4 m ρ c))
theorem W3_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_arg5 m ρ c))

/-! ## After the second host stretch: the five arrays the joint region finds -/

theorem W4_v6 (c : Dev nD) : W4 m ρ c (Proc.devRef .tc main_v6)
    = shapeCast S4x200x640 (W3 m ρ c (Proc.devRef .tc main_v4)) shapeCasts_S800x640_S4x200x640 := by
  show StableHlo.after hostOps2 (W3 m ρ c) (Proc.devRef .tc main_v6) = _
  after_results <;> rfl
theorem W4_v7 (c : Dev nD) : W4 m ρ c (Proc.devRef .tc main_v7)
    = shapeCast S4x100x640 (W3 m ρ c (Proc.devRef .tc main_v5)) shapeCasts_S400x640_S4x100x640 := by
  show StableHlo.after hostOps2 (W3 m ρ c) (Proc.devRef .tc main_v7) = _
  after_results <;> rfl
theorem W4_v8 (c : Dev nD) : W4 m ρ c (Proc.devRef .tc main_v8)
    = shapeCast S1x640 (W3 m ρ c (Proc.devRef .tc main_arg3)) shapeCasts_S640_S1x640 := by
  show StableHlo.after hostOps2 (W3 m ρ c) (Proc.devRef .tc main_v8) = _
  after_results <;> rfl
theorem W4_v9 (c : Dev nD) : W4 m ρ c (Proc.devRef .tc main_v9)
    = shapeCast S1x1024 (W3 m ρ c (Proc.devRef .tc main_arg5)) shapeCasts_S1024_S1x1024 := by
  show StableHlo.after hostOps2 (W3 m ρ c) (Proc.devRef .tc main_v9) = _
  after_results <;> rfl
theorem W4_arg4 (c : Dev nD) : W4 m ρ c (Proc.devRef .tc main_arg4) = W3 m ρ c (Proc.devRef .tc main_arg4) := by
  show StableHlo.after hostOps2 (W3 m ρ c) (Proc.devRef .tc main_arg4) = _
  after_results <;> rfl

/-- The first array the joint region finds is the encoder projection of the arguments. -/
theorem he_eq (c : Dev nD) : W4 m ρ c (Proc.devRef .tc main_v6)
    = encProj (m ((c : Thread nD τ).loc main_arg0)) (m ((c : Thread nD τ).loc main_arg2)) := by
  rw [W4_v6, W3_v4, W1_v2, W1_v0]
  exact enc_stage _ _ _ _ _

/-- The second array the joint region finds is the predictor projection of the arguments. -/
theorem hp_eq (c : Dev nD) : W4 m ρ c (Proc.devRef .tc main_v7)
    = predProj (m ((c : Thread nD τ).loc main_arg1)) (m ((c : Thread nD τ).loc main_arg2)) := by
  rw [W4_v7, W3_v5, W1_v3, W1_v1]
  exact pred_stage _ _ _ _ _

/-- The third is the first bias as a one-row matrix, the fifth the second bias as a one-row matrix. -/
theorem b1_eq (c : Dev nD) : W4 m ρ c (Proc.devRef .tc main_v8) = row (m ((c : Thread nD τ).loc main_arg3)) := by
  rw [W4_v8, W3_arg3]
  exact row_stage _ _

theorem b2_eq (c : Dev nD) : W4 m ρ c (Proc.devRef .tc main_v9) = row (m ((c : Thread nD τ).loc main_arg5)) := by
  rw [W4_v9, W3_arg5]
  exact row_stage _ _

/-- The fourth is W2 itself. -/
theorem w2_eq (c : Dev nD) : W4 m ρ c (Proc.devRef .tc main_arg4) = m ((c : Thread nD τ).loc main_arg4) :=
  (W4_arg4 m ρ c).trans (W3_arg4 m ρ c)

/-! ## The result buffer -/

/-- THE RESULT BUFFER at the last boundary is the specification of the argument arrays. -/
theorem result_eq (c : Dev nD) : W5 m ρ c (Proc.devRef .tc main_v10)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  calc W5 m ρ c (Proc.devRef .tc main_v10)
    _ = (dat2 (V4 m ρ) c).arrAt 5 cfg2.N := W5_arr m ρ c 5
    _ = joint (W4 m ρ c (Proc.devRef .tc main_v6)) (W4 m ρ c (Proc.devRef .tc main_v7)) (W4 m ρ c (Proc.devRef .tc main_v8))
          (W4 m ρ c (Proc.devRef .tc main_arg4)) (W4 m ρ c (Proc.devRef .tc main_v9)) := Region2.final (V4 m ρ) c
    _ = _ := by rw [he_eq, hp_eq, b1_eq, w2_eq, b2_eq]; rfl

end Cert.KernelIdeal.Fold

end
-- ==== Proof.RefValue.lean ====
/-
  The reference's term is the specification.

  The reference computes the two projections as products over the last axis of enc and pred against the two halves of
  W1's rows, broadcasts them against each other over the u and t axes, adds the bias along the last axis, applies
  x * (1 / (1 + e^(-x))), multiplies by W2 over the last axis and adds the second bias along the last axis. Read at an
  index (b, t, u, v), operation by operation, every broadcast and slice is a renaming of coordinates, the two products
  are the sums over d, and x * (1 / (1 + e^(-x))) is silu(x) by the definition of the logistic function on the
  extended reals (the constant 1.0 is the real number 1). What is left is the specification's own term.
-/
import proofs.«179707_j46170898432387_1_alg».proof.Proof.Gen.ReferenceIdeal.Read
import proofs.«179707_j46170898432387_1_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-! ## The composed index maps are coordinate renamings -/

section Indices
variable (b : Fin 4) (t : Fin 200) (u : Fin 100) (k : Fin 640) (v : Fin 1024) (d : Fin 640)

theorem enc_idx : lidx_main_v2 (idx_main_v4 (idx_main_v6 (ix4 b t u k))) d = ix3 b t d :=
  funext fun a => Fin.ext (by match a with | ⟨0, _⟩ => rfl | ⟨1, _⟩ => rfl | ⟨2, _⟩ => rfl)

theorem enc_w_idx : idx_main_v0 (ridx_main_v2 (idx_main_v4 (idx_main_v6 (ix4 b t u k))) d) = ix2 (upper d) k :=
  funext fun a => Fin.ext (by match a with | ⟨0, _⟩ => rfl | ⟨1, _⟩ => rfl)

theorem pred_idx : lidx_main_v3 (idx_main_v5 (idx_main_v7 (ix4 b t u k))) d = ix3 b u d :=
  funext fun a => Fin.ext (by match a with | ⟨0, _⟩ => rfl | ⟨1, _⟩ => rfl | ⟨2, _⟩ => rfl)

theorem pred_w_idx : idx_main_v1 (ridx_main_v3 (idx_main_v5 (idx_main_v7 (ix4 b t u k))) d) = ix2 (lower d) k :=
  funext fun a => Fin.ext (by match a with | ⟨0, _⟩ => rfl | ⟨1, _⟩ => rfl)

theorem bias1_idx : idx_main_v9 (idx_main_v10 (ix4 b t u k)) = ix1 k :=
  funext fun a => Fin.ext (by match a with | ⟨0, _⟩ => rfl)

theorem act_idx : lidx_main_v13 (ix4 b t u v) k = ix4 b t u k :=
  funext fun a => Fin.ext (by match a with | ⟨0, _⟩ => rfl | ⟨1, _⟩ => rfl | ⟨2, _⟩ => rfl | ⟨3, _⟩ => rfl)

theorem w2_idx : ridx_main_v13 (ix4 b t u v) k = ix2 k v :=
  funext fun a => Fin.ext (by match a with | ⟨0, _⟩ => rfl | ⟨1, _⟩ => rfl)

theorem bias2_idx : idx_main_v14 (idx_main_v15 (ix4 b t u v)) = ix1 v :=
  funext fun a => Fin.ext (by match a with | ⟨0, _⟩ => rfl)

end Indices

/-! ## The stages at an index -/

variable (x0 : (⟨S4x200x640, .f32⟩ : BufTy).Contents (Elt Ideal)) (x1 : (⟨S4x100x640, .f32⟩ : BufTy).Contents (Elt Ideal))
  (x2 : (⟨S1280x640, .f32⟩ : BufTy).Contents (Elt Ideal)) (x3 : (⟨S640, .f32⟩ : BufTy).Contents (Elt Ideal))
  (x4 : (⟨S640x1024, .f32⟩ : BufTy).Contents (Elt Ideal)) (x5 : (⟨S1024, .f32⟩ : BufTy).Contents (Elt Ideal))

/-- Before the activation, at (b, t, u, k): the two projections added, then the bias. -/
theorem pre_eq (b : Fin 4) (t : Fin 200) (u : Fin 100) (k : Fin 640) :
    val_main_v11 (F := Ideal) x0 x1 x2 x3 (ix4 b t u k)
      = (encProj x0 x2 (ix3 b t k) + predProj x1 x2 (ix3 b u k)) + row x3 (ix2 (0 : Fin 1) k) := by
  rw [val_main_v11_apply, val_main_v8_apply, val_main_v6_apply, val_main_v4_apply, val_main_v2_apply,
    val_main_v7_apply, val_main_v5_apply, val_main_v3_apply, val_main_v10_apply, val_main_v9_apply,
    bias1_idx, encProj_apply, predProj_apply, row_apply]
  simp only [val_main_v0_apply, val_main_v1_apply, enc_idx, enc_w_idx, pred_idx, pred_w_idx]
  rfl

/-- The constant 1.0 is the real number 1. -/
theorem one_eq : Ideal.ofBits .f32 0x3F800000#32 = (1 : EReal) := by
  simp [Ideal.ofBits, Ideal.ieee, -EReal.coe_mul]; norm_num

/-- The activation, at an index: x * (1 / (1 + e^(-x))) is silu(x). -/
theorem act_eq (i : S4x200x100x640.Idx) :
    val_main_v12 (F := Ideal) x0 x1 x2 x3 i = silu (val_main_v11 (F := Ideal) x0 x1 x2 x3 i) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply]
  generalize val_main_v11 (F := Ideal) x0 x1 x2 x3 i = y
  show y * Ideal.div (Ideal.ofBits .f32 0x3F800000#32) (Ideal.ofBits .f32 0x3F800000#32 + Ideal.exp (-y)) = silu y
  rw [one_eq]
  rfl

/-- THE REFERENCE'S TERM IS THE SPECIFICATION. -/
theorem ref_eq : val_main_v16 (F := Ideal) x0 x1 x2 x3 x4 x5 = G x0 x1 x2 x3 x4 x5 := by
  funext i
  obtain ⟨b, t, u, v, rfl⟩ : ∃ (b : Fin 4) (t : Fin 200) (u : Fin 100) (v : Fin 1024), i = ix4 b t u v :=
    ⟨i 0, i 1, i 2, i 3, eq_ix4 i⟩
  show _ = jointAt (encProj x0 x2) (predProj x1 x2) (row x3) x4 (row x5) b t u v
  unfold jointAt
  rw [val_main_v16_apply, val_main_v13_apply, val_main_v15_apply, val_main_v14_apply, bias2_idx, row_apply]
  refine congrArg₂ (· + ·) (Finset.sum_congr rfl fun k _ => ?_) rfl
  rw [act_idx, w2_idx, act_eq, pre_eq]

end Cert.ReferenceIdeal.RefValue

end
-- ==== Proof.lean ====
/-
  A joint network of a transducer: from enc : [4, 200, 640], pred : [4, 100, 640], W1 : [1280, 640], b1 : [640],
  W2 : [640, 1024], b2 : [1024], the two projections

      he(b, t, j) = sum over d of enc(b, t, d) * W1(d, j),      hp(b, u, j) = sum over d of pred(b, u, d) * W1(640 + d, j),

  and

      out(b, t, u, v) = (sum over j of silu((he(b, t, j) + hp(b, u, j)) + b1(j)) * W2(j, v)) + b2(v),   silu(x) = x * logistic(x).

  The kernel computes the two projections by two tiled matrix products on flattened operands and the output by a third
  tiled region that forms the broadcast sum, the activation and the product with a column block of W2 per tile; the
  reference computes the same with whole-array contractions. On the extended reals both are the one function above
  (Proof/Spec.lean's `G`), term for term: the tilings only partition the index set, flattening and unflattening
  (b, t) are inverse renamings, a change of float format is the identity, a matrix product into zeros is the plain
  sum, and the reference's x * (1 / (1 + e^(-x))) is x * logistic(x) by the definition of the logistic function. The
  additions are grouped the same way on both sides, so no law of arithmetic on the extended reals — and so no
  finiteness of the inputs — is used.

  The kernel's side: the run of @main names the result buffer at the last boundary's contents (Proof/ValueRun.lean);
  each region leaves a function of the arrays it finds (Proof/Region0.lean, Region1.lean, Region2.lean); the fold of
  boundary contents unfolds to the arguments (Proof/Fold.lean). The reference's side: its generated run and
  read-at-an-index lemmas, joined to `G` in Proof/RefValue.lean. The idealized kernel is the kernel's own text read on
  the extended reals: nothing was rewritten, so there is nothing to preserve.
-/
import proofs.«179707_j46170898432387_1_alg».proof.Defs
import proofs.«179707_j46170898432387_1_alg».proof.Proof.Gen.Kernel
import proofs.«179707_j46170898432387_1_alg».proof.Proof.Gen.Kernel.Skeleton
import proofs.«179707_j46170898432387_1_alg».proof.Proof.Gen.Kernel.Launch
import proofs.«179707_j46170898432387_1_alg».proof.Proof.Gen.Kernel.Points
import proofs.«179707_j46170898432387_1_alg».proof.Proof.Gen.Kernel.Frame
import proofs.«179707_j46170898432387_1_alg».proof.Proof.Gen.KernelIdeal
import proofs.«179707_j46170898432387_1_alg».proof.Proof.Gen.KernelIdeal.Skeleton
import proofs.«179707_j46170898432387_1_alg».proof.Proof.Gen.KernelIdeal.Launch
import proofs.«179707_j46170898432387_1_alg».proof.Proof.Gen.KernelIdeal.Points
import proofs.«179707_j46170898432387_1_alg».proof.Proof.Gen.KernelIdeal.Frame
import proofs.«179707_j46170898432387_1_alg».proof.Proof.Gen.ReferenceIdeal
import proofs.«179707_j46170898432387_1_alg».proof.Proof.Gen.ReferenceIdeal.Run
import proofs.«179707_j46170898432387_1_alg».proof.Proof.Gen.ReferenceIdeal.Read
import proofs.«179707_j46170898432387_1_alg».proof.Proof.Gen.Pre_finite_inputs
import proofs.«179707_j46170898432387_1_alg».proof.Proof.Spec
import proofs.«179707_j46170898432387_1_alg».proof.Proof.ValueRun
import proofs.«179707_j46170898432387_1_alg».proof.Proof.Fold
import proofs.«179707_j46170898432387_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result at the specification of the
    kernel's arguments: the kernel's by its run and the fold, the reference's by its run and its term read at an index. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.ValueRun.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v16_eq, Cert.ReferenceIdeal.RefValue.ref_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
